-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x128 : Shape := ⟨2, ![2097152, 128]⟩
abbrev S_ : Shape := ⟨0, ![]⟩
abbrev S2097152 : Shape := ⟨1, ![2097152]⟩

class Facts : Prop where
  bcast_S_S2097152x128 : S_.BroadcastsInDim S2097152x128 (![] : Fin 0 → Fin S2097152x128.rank)
  reducesTo_S2097152x128_S_d0_1 : S2097152x128.ReducesTo [0, 1] S_
  h_S_ : 0 < S_.numel
  reducesTo_S2097152x128_S2097152_d1 : S2097152x128.ReducesTo [1] S2097152
  bcast_S_S2097152 : S_.BroadcastsInDim S2097152 (![] : Fin 0 → Fin S2097152.rank)
  reducesTo_S2097152_S_d0 : S2097152.ReducesTo [0] S_

variable [Facts]

def fn {F : FTy → Type} [FloatOps F] (main_arg0 : FVec F S2097152x128 .f32) : IVec S_ 1 :=
  let main_v0 : FVec F S2097152x128 .f32 := Host.absf main_arg0
  let main_cst : FVec F S_ .f32 := constant S_ .f32 0x7F800000#32
  let main_v1 : FVec F S2097152x128 .f32 := broadcastInDim S2097152x128 ![] bcast_S_S2097152x128 main_cst
  let main_v2 : IVec S2097152x128 1 := cmpf .olt main_v0 main_v1
  let main_c : IVec S_ 1 := constantI S_ 1 1#1
  let main_v3 : IVec S_ 1 := (fun x v => Host.reduce IntOp.andi x v reducesTo_S2097152x128_S_d0_1 h_S_) main_v2 main_c
  let main_cst_0 : FVec F S_ .f32 := constant S_ .f32 0x00000000#32
  let main_v4 : FVec F S2097152 .f32 := (fun x v => Host.reduceAdd x v reducesTo_S2097152x128_S2097152_d1 h_S_) main_arg0 main_cst_0
  let main_cst_1 : FVec F S_ .f32 := constant S_ .f32 0x00000000#32
  let main_v5 : FVec F S2097152 .f32 := broadcastInDim S2097152 ![] bcast_S_S2097152 main_cst_1
  let main_v6 : IVec S2097152 1 := cmpf .une main_v4 main_v5
  let main_c_2 : IVec S_ 1 := constantI S_ 1 1#1
  let main_v7 : IVec S_ 1 := (fun x v => Host.reduce IntOp.andi x v reducesTo_S2097152_S_d0 h_S_) main_v6 main_c_2
  let main_v8 : IVec S_ 1 := andi main_v3 main_v7
  main_v8
-- ==== Kernel.lean ====
abbrev S2097152x128 : Shape := ⟨2, ![2097152, 128]⟩
abbrev S29960x128 : Shape := ⟨2, ![29960, 128]⟩
abbrev S29960 : Shape := ⟨1, ![29960]⟩
abbrev S29960x1 : Shape := ⟨2, ![29960, 1]⟩

abbrev nBuf : Space → Nat
  | .hbm => 2
  | .vmem => 4
  | .smem => 0
  | _ => 0

abbrev bufTy : (tb : Table) → Fin (tcTables nBuf tb) → BufTy
  | .hbm, ⟨0, _⟩ => ⟨S2097152x128, .f32⟩
  | .hbm, ⟨1, _⟩ => ⟨S2097152x128, .f32⟩
  | .local _ .vmem, ⟨0, _⟩ => ⟨S29960x128, .f32⟩
  | .local _ .vmem, ⟨1, _⟩ => ⟨S29960x128, .f32⟩
  | .local _ .vmem, ⟨2, _⟩ => ⟨S29960x128, .f32⟩
  | .local _ .vmem, ⟨3, _⟩ => ⟨S29960x128, .f32⟩
  | _, _ => ⟨S2097152x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![70], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S29960x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S29960x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S29960x128_S29960x128_0_0 : ∀ a, (![0, 0] : Fin 2 → Nat) a + S29960x128.size a ≤ S29960x128.size a
  h_S29960x128 : 0 < S29960x128.numel
  reduces_S29960x128_S29960 : S29960x128.Reduces [1] S29960
  shapeCasts_S29960_S29960x1 : S29960.ShapeCasts S29960x1
  broadcasts_S29960x1_S29960x128 : S29960x1.Broadcasts S29960x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S29960x128.size a < S2097152x128.size a
  hwx0_0 : ∀ i : grid0.Coords, EltTy.bits .f32 = 32 ∨ (Rect.unit (s := S2097152x128) (fun a => cc0_transform_0 i a * S29960x128.size a) (fun a => (Pipeline.Clip.of (cc0_transform_0 i a) (S29960x128.size a) (S2097152x128.size a)).extent (S29960x128.size a)) fun a => Pipeline.Clip.inb (Pipeline.Clip.ok_of (hstart0_0 i a))).WholeWords (EltTy.packing .f32)
  hwxs0_0 : ∀ i : grid0.Coords, EltTy.bits .f32 = 32 ∨ (Rect.unit (s := S29960x128) (fun _ => 0) (fun a => (Pipeline.Clip.of (cc0_transform_0 i a) (S29960x128.size a) (S2097152x128.size a)).extent (S29960x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S29960x128.size a < S2097152x128.size a
  hwx0_1 : ∀ i : grid0.Coords, EltTy.bits .f32 = 32 ∨ (Rect.unit (s := S2097152x128) (fun a => cc0_transform_1 i a * S29960x128.size a) (fun a => (Pipeline.Clip.of (cc0_transform_1 i a) (S29960x128.size a) (S2097152x128.size a)).extent (S29960x128.size a)) fun a => Pipeline.Clip.inb (Pipeline.Clip.ok_of (hstart0_1 i a))).WholeWords (EltTy.packing .f32)
  hwxs0_1 : ∀ i : grid0.Coords, EltTy.bits .f32 = 32 ∨ (Rect.unit (s := S29960x128) (fun _ => 0) (fun a => (Pipeline.Clip.of (cc0_transform_1 i a) (S29960x128.size a) (S2097152x128.size a)).extent (S29960x128.size a)) fun a => (Nat.zero_add _).trans_le (Pipeline.Clip.extent_le (Pipeline.Clip.ok_of (hstart0_1 i a)))).WholeWords (EltTy.packing .f32)

variable [Facts₀]

abbrev win0_0 : Pipeline.Window sig grid0 :=
  Pipeline.Window.ofSpecClip (Memref.whole main_arg0) S29960x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v0) S29960x128.size cc0_transform_1 reads0_1 true false 2 stage0_1 sem0_1
    hrank0 hreads0_1 hstart0_1 nbuf0_1 (Memref.isWhole_whole _) hwx0_1 hwxs0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2097152x128 : Shape := ⟨2, ![2097152, 128]⟩
abbrev S_ : Shape := ⟨0, ![]⟩
abbrev S2097152 : Shape := ⟨1, ![2097152]⟩
abbrev S2097152x1 : Shape := ⟨2, ![2097152, 1]⟩

abbrev nBuf : Space → Nat
  | .hbm => 6
  | .vmem => 0
  | .smem => 0
  | _ => 0

abbrev bufTy : (tb : Table) → Fin (tcTables nBuf tb) → BufTy
  | .hbm, ⟨0, _⟩ => ⟨S2097152x128, .f32⟩
  | .hbm, ⟨1, _⟩ => ⟨S_, .f32⟩
  | .hbm, ⟨2, _⟩ => ⟨S2097152, .f32⟩
  | .hbm, ⟨3, _⟩ => ⟨S2097152x1, .f32⟩
  | .hbm, ⟨4, _⟩ => ⟨S2097152x128, .f32⟩
  | .hbm, ⟨5, _⟩ => ⟨S2097152x128, .f32⟩
  | _, _ => ⟨S2097152x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]

class Facts₀ : Prop where
  reducesTo_S2097152x128_S2097152_d1 : S2097152x128.ReducesTo [1] S2097152
  h_S_ : 0 < S_.numel
  bcast_S2097152_S2097152x1_0 : S2097152.BroadcastsInDim S2097152x1 (![0] : Fin 1 → Fin S2097152x1.rank)
  bcast_S2097152x1_S2097152x128_0_1 : S2097152x1.BroadcastsInDim S2097152x128 (![0, 1] : Fin 2 → Fin S2097152x128.rank)

variable [Facts₀]

class Facts : Prop extends Facts₀ where

variable [Facts]
-- ==== Proof.BitsBody.lean ====
/-
  The kernel body on its staging buffers, as one triple for every float instance.

  The body reads the whole input staging block `X0` (29960 rows of 128 lanes), forms each row's sum, its
  reciprocal, and the product of every entry with its row's reciprocal, reads the result's staging block (a value
  nothing uses) and overwrites that block whole with the products. So from the two buffers at any contents
  `X0`, `X1` it runs to the input's buffer unchanged and the result's buffer at the body's arithmetic of `X0`
  (the skeleton's payload `k0_pay1 X0`), at whichever of each window's two staging buffers the point uses:
  both accesses are the unit rectangle at offset zero of the buffer's own sizes, through which a load reads
  the contents and an unmasked store leaves its payload.
-/
import proofs.«111073_g57389353009667_feedfinal_98_7_alg».proof.Proof.Gen.Kernel.Frame
import proofs.«111073_g57389353009667_feedfinal_98_7_alg».proof.Proof.Gen.Kernel.Skeleton
import Idealize.ShloMosaic.Lib.Pipeline.Kit
import Idealize.ShloMosaic.Lib.Tactic

noncomputable section

namespace Cert.Kernel.Body

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-- The body at grid coordinates `i` on staging buffer `s0` of the input's window and `s1` of the result's: the
    input's buffer is only read, the result's ends holding the row-normalised block of what the input's holds. -/
theorem sound_body (c : Dev nD) (E : Set ℕ) (i : grid0.Coords) (s0 s1 : Fin 2)
    (X0 X1 : S29960x128.Idx → Elt F .f32) (K : PUnit → sProp 𝕄) :
    iprop((owns (c : Thread nD τ) (stage0_0 s0) fullShare X0 ∗ owns (c : Thread nD τ) (stage0_1 s1) fullShare X1)
          ∗ (iprop(owns (c : Thread nD τ) (stage0_0 s0) fullShare X0
                  ∗ owns (c : Thread nD τ) (stage0_1 s1) fullShare (k0_pay1 X0)) -∗ K ⟨⟩))
      ⊢ wp frame (wpE (defs₀ (F := F)) Variants.none c none) E
          (cc0__norm_body i (stage0_0 s0) (hstage0_0 s0) (stage0_1 s1) (hstage0_1 s1)) K := by
  have hz : (![0, 0] : Fin 2 → Nat) = fun _ => 0 := funext fun a => by fin_cases a <;> rfl
  fin_cases s0 <;> fin_cases s1
  · -- the input's buffer `cc0_stg0_0`, the result's `cc0_stg1_0`
    have hr0 : (Memref.whole cc0_stg0_0 : Memref sig .tc _ _ _).view.readAt (Elt F) (Rect.unit (s := S29960x128) ![0, 0] S29960x128.size
        inb_S29960x128_S29960x128_0_0).toLoadRect = id := funext (Memref.readAt_unit_zero (Elt F) cc0_stg0_0 hz _)
    have hw1 : ∀ f w, (((Memref.whole cc0_stg1_0).access (Rect.unit (s := S29960x128) ![0, 0] S29960x128.size inb_S29960x128_S29960x128_0_0)) :
        View sig .tc _ _ _).write (Elt F) f w Finset.univ = w := Memref.write_access_unit_zero_univ (Elt F) cc0_stg1_0 hz _
    simp only [owns_whole_eq, cc0__norm_body_eq_skeleton]; unfold cc0__norm_body_skel
    simp only [Prog.lift, Prog.bind_op, Prog.bind_ret]
    iintro ⟨⟨⟨%f0, %hf0, H0⟩, ⟨%f1, %hf1, H1⟩⟩, Hk⟩
    sl_steps
    iapply Hk
    rw [hr0, hw1]
    isplitl [H0]
    · iexists f0; isplitr; · ipureintro; exact hf0
      iexact H0
    · iexists k0_pay1 f0; isplitr; · ipureintro; rw [hf0]
      iexact H1
  · -- the input's buffer `cc0_stg0_0`, the result's `cc0_stg1_1`
    have hr0 : (Memref.whole cc0_stg0_0 : Memref sig .tc _ _ _).view.readAt (Elt F) (Rect.unit (s := S29960x128) ![0, 0] S29960x128.size
        inb_S29960x128_S29960x128_0_0).toLoadRect = id := funext (Memref.readAt_unit_zero (Elt F) cc0_stg0_0 hz _)
    have hw1 : ∀ f w, (((Memref.whole cc0_stg1_1).access (Rect.unit (s := S29960x128) ![0, 0] S29960x128.size inb_S29960x128_S29960x128_0_0)) :
        View sig .tc _ _ _).write (Elt F) f w Finset.univ = w := Memref.write_access_unit_zero_univ (Elt F) cc0_stg1_1 hz _
    simp only [owns_whole_eq, cc0__norm_body_eq_skeleton]; unfold cc0__norm_body_skel
    simp only [Prog.lift, Prog.bind_op, Prog.bind_ret]
    iintro ⟨⟨⟨%f0, %hf0, H0⟩, ⟨%f1, %hf1, H1⟩⟩, Hk⟩
    sl_steps
    iapply Hk
    rw [hr0, hw1]
    isplitl [H0]
    · iexists f0; isplitr; · ipureintro; exact hf0
      iexact H0
    · iexists k0_pay1 f0; isplitr; · ipureintro; rw [hf0]
      iexact H1
  · -- the input's buffer `cc0_stg0_1`, the result's `cc0_stg1_0`
    have hr0 : (Memref.whole cc0_stg0_1 : Memref sig .tc _ _ _).view.readAt (Elt F) (Rect.unit (s := S29960x128) ![0, 0] S29960x128.size
        inb_S29960x128_S29960x128_0_0).toLoadRect = id := funext (Memref.readAt_unit_zero (Elt F) cc0_stg0_1 hz _)
    have hw1 : ∀ f w, (((Memref.whole cc0_stg1_0).access (Rect.unit (s := S29960x128) ![0, 0] S29960x128.size inb_S29960x128_S29960x128_0_0)) :
        View sig .tc _ _ _).write (Elt F) f w Finset.univ = w := Memref.write_access_unit_zero_univ (Elt F) cc0_stg1_0 hz _
    simp only [owns_whole_eq, cc0__norm_body_eq_skeleton]; unfold cc0__norm_body_skel
    simp only [Prog.lift, Prog.bind_op, Prog.bind_ret]
    iintro ⟨⟨⟨%f0, %hf0, H0⟩, ⟨%f1, %hf1, H1⟩⟩, Hk⟩
    sl_steps
    iapply Hk
    rw [hr0, hw1]
    isplitl [H0]
    · iexists f0; isplitr; · ipureintro; exact hf0
      iexact H0
    · iexists k0_pay1 f0; isplitr; · ipureintro; rw [hf0]
      iexact H1
  · -- the input's buffer `cc0_stg0_1`, the result's `cc0_stg1_1`
    have hr0 : (Memref.whole cc0_stg0_1 : Memref sig .tc _ _ _).view.readAt (Elt F) (Rect.unit (s := S29960x128) ![0, 0] S29960x128.size
        inb_S29960x128_S29960x128_0_0).toLoadRect = id := funext (Memref.readAt_unit_zero (Elt F) cc0_stg0_1 hz _)
    have hw1 : ∀ f w, (((Memref.whole cc0_stg1_1).access (Rect.unit (s := S29960x128) ![0, 0] S29960x128.size inb_S29960x128_S29960x128_0_0)) :
        View sig .tc _ _ _).write (Elt F) f w Finset.univ = w := Memref.write_access_unit_zero_univ (Elt F) cc0_stg1_1 hz _
    simp only [owns_whole_eq, cc0__norm_body_eq_skeleton]; unfold cc0__norm_body_skel
    simp only [Prog.lift, Prog.bind_op, Prog.bind_ret]
    iintro ⟨⟨⟨%f0, %hf0, H0⟩, ⟨%f1, %hf1, H1⟩⟩, Hk⟩
    sl_steps
    iapply Hk
    rw [hr0, hw1]
    isplitl [H0]
    · iexists f0; isplitr; · ipureintro; exact hf0
      iexact H0
    · iexists k0_pay1 f0; isplitr; · ipureintro; rw [hf0]
      iexact H1

end Cert.Kernel.Body

end
-- ==== Proof.BitsFrame.lean ====
/-
  The frame of the word-level program: it runs to the end without fault, and the input array ends holding what it
  held.

  The program is one pipelined region of 70 points over two windows of 29960-row blocks on arrays of 2097152 rows:
  window 0 fetches the input's block into one of two staging buffers, window 1 writes one of two staging buffers
  back onto the result's block. Seventy blocks of 29960 rows cover 2097200 rows, so the last block overhangs both
  arrays by 48 rows: the fetch at the last point fills only the part of the buffer that lies inside the array, and
  the 48 rows past it hold words the machine picks. Nothing names those words, so the staging buffers' contents
  are not a function of the arrays, and neither is what the body computes from them.

  A frame asks nothing of what a staging buffer holds or of what the result array ends at. So BOTH windows are
  forgotten: at every point each current buffer is handed to the body at SOME contents and taken back at SOME
  contents. The body's triple holds at any contents of the two buffers (it reads the input's buffer, leaves it as it
  was, and overwrites the result's), which is all this obligation needs. The run then gives, for every array a
  window stages, some contents it may hold after the write-backs; for an INPUT window no write-back ever targets
  its array, so those contents are the entry contents, and the region's entry is the launch itself.
-/
import proofs.«111073_g57389353009667_feedfinal_98_7_alg».proof.Proof.BitsBody
import Idealize.ShloMosaic.Lib.Pipeline.Frame
import Idealize.ShloMosaic.Lib.Pipeline.Kit
import Idealize.ShloMosaic.Lib.Tactic

noncomputable section

namespace Cert.Kernel.BitsFrame

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data: both windows forgotten -/

/-- Every window is forgotten: the input's staging buffer because its last fetch leaves 48 rows at words nothing
    names, the result's because the body fills it from those. -/
def forgets : Fin 2 → Bool := fun _ => true

/-- The data of the one pipeline on core `c`: the arrays as the launch leaves them; what the body leaves in either
    window unnamed (the relation of a forgotten window never reads it); the class's invariant; full shares; nothing
    owed. -/
def dats (_ : Fin 1) (c : Dev nD) : Dat τ (Elt F) Unit ℕ (UR sig nD τ) ℕ cfg0 c where
  A w := V m c (Pipeline.arrRef spec0 w)
  after w t := match w with
    | ⟨0, h⟩ => Pipeline.Dat.unnamed (cfg := cfg0) ⟨0, h⟩ t
    | ⟨1, h⟩ => Pipeline.Dat.unnamed (cfg := cfg0) ⟨1, h⟩ t
  Φ _ := Pipeline.ΦA spec0 c
  q _ := fullShare
  owed _ := 0

/-- The data's arrays are the launch's, window by window. -/
theorem A_eq (c : Dev nD) (w : Fin cfg0.W) : (dats m 0 c).A w = V m c (Pipeline.arrRef spec0 w) := by
  dsimp only [dats]

/-! ## The body obligation -/

/-- At every point: each window's current staging buffer arrives at some contents `X0`, `X1`; the body's triple at
    those contents leaves the input's buffer at `X0` and the result's at the body's arithmetic of `X0`, and each goes
    back as "some contents". The invariant and the (empty) debt pass through untouched. -/
theorem body_obligation (c : Dev nD) :
    BodyObligation (dats (F := F) m 0 c) (defs₀ (F := F)) Variants.none () Set.univ forgets := fun t => by
  rw [bigSep_W0, bigSep_W0]
  simp only [forgets]
  rw [show (dats m 0 c).Φ t.succ = (dats m 0 c).Φ t.castSucc from rfl,
    show (dats m 0 c).owesAt () t.succ = (dats m 0 c).owesAt () t.castSucc from rfl]
  iintro ⟨HΦ, Ho, ⟨%X0, H0⟩, ⟨%X1, H1⟩⟩
  iapply (Cert.Kernel.Body.sound_body (F := F) c Set.univ (grid0.coords t) (cfg0.slots t 0) (cfg0.slots t 1) X0 X1 _)
  isplitl [H0 H1]
  · isplitl [H0]
    · iexact H0
    · iexact H1
  iintro ⟨H0, H1⟩
  isplitl [HΦ]; · iexact HΦ
  isplitl [Ho]; · iexact Ho
  isplitl [H0]
  · iexists X0; iexact H0
  · iexists k0_pay1 X0; iexact H1

/-! ## The run and the frame -/

-- the run's configuration and defs are implicit in the library's theorem and are read off this statement, where they
-- appear as the program's own definitions (`cfgs 0`, `defs`): matching them needs those definitions unfolded inside types
set_option backward.isDefEq.respectTransparency.types false in
/-- From any memory with zero counters every weakly fair execution of @main terminates, and at the end each staged
    array holds some contents it may hold after the write-backs (for the input: its entry contents), every other
    unscoped buffer what it held. -/
theorem run_main : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget)
    (hshare := fun c => ((dats m 0 c).toRForget forgets).share_full fun _ => rfl)
    (howed := fun _ _ => rfl) (V := V m) (hmain := hmain m Variants.none) (hA := A_eq m) (hΦ := fun _ _ => rfl)

/-- THE FRAME: window 0 is an input window, so no write-back targets its array and the run's clause for it says the
    array holds its entry contents; those are the launch's contents of the argument array. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono
    (fun _ h c => (Pipeline.RDat.FramePost.arr_in h c (0 : Fin 2) rfl).trans ((A_eq m c 0).trans (V_main_arg0 m c)))
    (run_main m ρ)

end Cert.Kernel.BitsFrame

end
-- ==== Proof.IdealBody.lean ====
/-
  The kernel body on its staging buffers, as one triple for every float instance.

  The body reads the whole input staging block `X0` (29960 rows of 128 lanes), forms each row's sum, its
  reciprocal, and the product of every entry with its row's reciprocal, reads the result's staging block (a value
  nothing uses) and overwrites that block whole with the products. So from the two buffers at any contents
  `X0`, `X1` it runs to the input's buffer unchanged and the result's buffer at the body's arithmetic of `X0`
  (the skeleton's payload `k0_pay1 X0`), at whichever of each window's two staging buffers the point uses:
  both accesses are the unit rectangle at offset zero of the buffer's own sizes, through which a load reads
  the contents and an unmasked store leaves its payload.
-/
import proofs.«111073_g57389353009667_feedfinal_98_7_alg».proof.Proof.Gen.KernelIdeal.Frame
import proofs.«111073_g57389353009667_feedfinal_98_7_alg».proof.Proof.Gen.KernelIdeal.Skeleton
import Idealize.ShloMosaic.Lib.Pipeline.Kit
import Idealize.ShloMosaic.Lib.Tactic

noncomputable section

namespace Cert.KernelIdeal.Body

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-- The body at grid coordinates `i` on staging buffer `s0` of the input's window and `s1` of the result's: the
    input's buffer is only read, the result's ends holding the row-normalised block of what the input's holds. -/
theorem sound_body (c : Dev nD) (E : Set ℕ) (i : grid0.Coords) (s0 s1 : Fin 2)
    (X0 X1 : S29960x128.Idx → Elt F .f32) (K : PUnit → sProp 𝕄) :
    iprop((owns (c : Thread nD τ) (stage0_0 s0) fullShare X0 ∗ owns (c : Thread nD τ) (stage0_1 s1) fullShare X1)
          ∗ (iprop(owns (c : Thread nD τ) (stage0_0 s0) fullShare X0
                  ∗ owns (c : Thread nD τ) (stage0_1 s1) fullShare (k0_pay1 X0)) -∗ K ⟨⟩))
      ⊢ wp frame (wpE (defs₀ (F := F)) Variants.none c none) E
          (cc0__norm_body i (stage0_0 s0) (hstage0_0 s0) (stage0_1 s1) (hstage0_1 s1)) K := by
  have hz : (![0, 0] : Fin 2 → Nat) = fun _ => 0 := funext fun a => by fin_cases a <;> rfl
  fin_cases s0 <;> fin_cases s1
  · -- the input's buffer `cc0_stg0_0`, the result's `cc0_stg1_0`
    have hr0 : (Memref.whole cc0_stg0_0 : Memref sig .tc _ _ _).view.readAt (Elt F) (Rect.unit (s := S29960x128) ![0, 0] S29960x128.size
        inb_S29960x128_S29960x128_0_0).toLoadRect = id := funext (Memref.readAt_unit_zero (Elt F) cc0_stg0_0 hz _)
    have hw1 : ∀ f w, (((Memref.whole cc0_stg1_0).access (Rect.unit (s := S29960x128) ![0, 0] S29960x128.size inb_S29960x128_S29960x128_0_0)) :
        View sig .tc _ _ _).write (Elt F) f w Finset.univ = w := Memref.write_access_unit_zero_univ (Elt F) cc0_stg1_0 hz _
    simp only [owns_whole_eq, cc0__norm_body_eq_skeleton]; unfold cc0__norm_body_skel
    simp only [Prog.lift, Prog.bind_op, Prog.bind_ret]
    iintro ⟨⟨⟨%f0, %hf0, H0⟩, ⟨%f1, %hf1, H1⟩⟩, Hk⟩
    sl_steps
    iapply Hk
    rw [hr0, hw1]
    isplitl [H0]
    · iexists f0; isplitr; · ipureintro; exact hf0
      iexact H0
    · iexists k0_pay1 f0; isplitr; · ipureintro; rw [hf0]
      iexact H1
  · -- the input's buffer `cc0_stg0_0`, the result's `cc0_stg1_1`
    have hr0 : (Memref.whole cc0_stg0_0 : Memref sig .tc _ _ _).view.readAt (Elt F) (Rect.unit (s := S29960x128) ![0, 0] S29960x128.size
        inb_S29960x128_S29960x128_0_0).toLoadRect = id := funext (Memref.readAt_unit_zero (Elt F) cc0_stg0_0 hz _)
    have hw1 : ∀ f w, (((Memref.whole cc0_stg1_1).access (Rect.unit (s := S29960x128) ![0, 0] S29960x128.size inb_S29960x128_S29960x128_0_0)) :
        View sig .tc _ _ _).write (Elt F) f w Finset.univ = w := Memref.write_access_unit_zero_univ (Elt F) cc0_stg1_1 hz _
    simp only [owns_whole_eq, cc0__norm_body_eq_skeleton]; unfold cc0__norm_body_skel
    simp only [Prog.lift, Prog.bind_op, Prog.bind_ret]
    iintro ⟨⟨⟨%f0, %hf0, H0⟩, ⟨%f1, %hf1, H1⟩⟩, Hk⟩
    sl_steps
    iapply Hk
    rw [hr0, hw1]
    isplitl [H0]
    · iexists f0; isplitr; · ipureintro; exact hf0
      iexact H0
    · iexists k0_pay1 f0; isplitr; · ipureintro; rw [hf0]
      iexact H1
  · -- the input's buffer `cc0_stg0_1`, the result's `cc0_stg1_0`
    have hr0 : (Memref.whole cc0_stg0_1 : Memref sig .tc _ _ _).view.readAt (Elt F) (Rect.unit (s := S29960x128) ![0, 0] S29960x128.size
        inb_S29960x128_S29960x128_0_0).toLoadRect = id := funext (Memref.readAt_unit_zero (Elt F) cc0_stg0_1 hz _)
    have hw1 : ∀ f w, (((Memref.whole cc0_stg1_0).access (Rect.unit (s := S29960x128) ![0, 0] S29960x128.size inb_S29960x128_S29960x128_0_0)) :
        View sig .tc _ _ _).write (Elt F) f w Finset.univ = w := Memref.write_access_unit_zero_univ (Elt F) cc0_stg1_0 hz _
    simp only [owns_whole_eq, cc0__norm_body_eq_skeleton]; unfold cc0__norm_body_skel
    simp only [Prog.lift, Prog.bind_op, Prog.bind_ret]
    iintro ⟨⟨⟨%f0, %hf0, H0⟩, ⟨%f1, %hf1, H1⟩⟩, Hk⟩
    sl_steps
    iapply Hk
    rw [hr0, hw1]
    isplitl [H0]
    · iexists f0; isplitr; · ipureintro; exact hf0
      iexact H0
    · iexists k0_pay1 f0; isplitr; · ipureintro; rw [hf0]
      iexact H1
  · -- the input's buffer `cc0_stg0_1`, the result's `cc0_stg1_1`
    have hr0 : (Memref.whole cc0_stg0_1 : Memref sig .tc _ _ _).view.readAt (Elt F) (Rect.unit (s := S29960x128) ![0, 0] S29960x128.size
        inb_S29960x128_S29960x128_0_0).toLoadRect = id := funext (Memref.readAt_unit_zero (Elt F) cc0_stg0_1 hz _)
    have hw1 : ∀ f w, (((Memref.whole cc0_stg1_1).access (Rect.unit (s := S29960x128) ![0, 0] S29960x128.size inb_S29960x128_S29960x128_0_0)) :
        View sig .tc _ _ _).write (Elt F) f w Finset.univ = w := Memref.write_access_unit_zero_univ (Elt F) cc0_stg1_1 hz _
    simp only [owns_whole_eq, cc0__norm_body_eq_skeleton]; unfold cc0__norm_body_skel
    simp only [Prog.lift, Prog.bind_op, Prog.bind_ret]
    iintro ⟨⟨⟨%f0, %hf0, H0⟩, ⟨%f1, %hf1, H1⟩⟩, Hk⟩
    sl_steps
    iapply Hk
    rw [hr0, hw1]
    isplitl [H0]
    · iexists f0; isplitr; · ipureintro; exact hf0
      iexact H0
    · iexists k0_pay1 f0; isplitr; · ipureintro; rw [hf0]
      iexact H1

end Cert.KernelIdeal.Body

end
-- ==== Proof.LibKeepdims.lean ====
/-
  Two layout operations of a `keepdims` row reduction, read at an index: a vector of `a` row values recast as
  an `[a, 1]` column, and such a column spread over `b` lanes. Both read the operand at the row's coordinate;
  the unit coordinate plays no part.
-/
import Idealize.ShloMosaic.Lib.ValueIdx
import Idealize.ShloMosaic.Lib.Pipeline.Value

noncomputable section

namespace Cert.LibKeepdims

open Idealize.ShloMosaic Idealize.ShloMosaic.ValueIdx

variable {α : Type}

/-- An `[a]` vector cast to an `[a, 1]` column reads, at `(i, u)`, the operand at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread to `[a, b]` reads, at `(i, j)`, the operand at `(i, 0)`: the row coordinate is kept
    (it is `0` anyway when `a = 1`) and the unit axis is read at `0`. -/
theorem broadcastTo_a1_ab_apply {a b : ℕ} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) :=
  broadcastTo_apply x h _ _ (fun c => match c with
    | ⟨0, _⟩ => by
      show i.val = if a = 1 then 0 else i.val
      by_cases ha : a = 1
      · rw [if_pos ha]; have := i.isLt; omega
      · rw [if_neg ha]
    | ⟨1, _⟩ => by
      show 0 = if (1 : ℕ) = 1 then 0 else j.val
      rw [if_pos rfl])

end Cert.LibKeepdims

end
-- ==== Proof.IdealPay.lean ====
/-
  The body's arithmetic at one element, over the extended reals.

  The body's stored block is a function of the loaded block `X` (29960 rows, 128 lanes): the lane sum of every
  row, recast as a column, the reciprocal `1 / ·` of that column, the column spread back over the 128 lanes, and
  the product with `X`. Read at row `p`, lane `q` it is `X p q · (1 / Σ_k X p k)`: only row `p` of `X` enters.
-/
import proofs.«111073_g57389353009667_feedfinal_98_7_alg».proof.Proof.Gen.KernelIdeal.Skeleton
import proofs.«111073_g57389353009667_feedfinal_98_7_alg».proof.Proof.LibKeepdims
import Idealize.ShloMosaic.Lib.ValueIdx
import Idealize.ShloMosaic.Lib.Pipeline.Value
import Idealize.ShloMosaic.PureOps.Ideal.Laws
import Idealize.ShloMosaic.PureOps.IdealRules

noncomputable section

open scoped BigOperators

namespace Cert.KernelIdeal.Pay

open Cert.KernelIdeal Cert.KernelIdeal.Gen
open Idealize.ShloMosaic Idealize.ShloMosaic.ValueIdx

variable [Facts]

/-- The lane sum of row `p`: the sum of the row's 128 entries. -/
theorem laneSum_apply (X : FVec Ideal S29960x128 .f32) (p : Fin 29960) :
    multiReduction .add [1] S29960 X 0x00000000#32 Facts₀.reduces_S29960x128_S29960 (.inl rfl) rfl (ix1 p)
      = ∑ k : Fin 128, X (ix2 p k) := by
  refine (Ideal.multiReduction_add_single X 0x00000000#32 Facts₀.reduces_S29960x128_S29960 (.inl rfl) rfl (ix1 p)).trans ?_
  refine Finset.sum_congr rfl fun k _ => congrArg X (funext fun a => Fin.ext ?_)
  match a with
  | ⟨0, _⟩ => rfl
  | ⟨1, _⟩ => rfl

/-- The word of `1.0` is the number one. -/
theorem one_word : (Scalar.ofBits .f32 0x3F800000#32 : Ideal .f32) = 1 :=
  IdealRules.sign_bit.ideal_onePat .f32

/-- The column of reciprocals at row `p`: one over the row's sum. -/
theorem recip_apply (X : FVec Ideal S29960x128 .f32) (p : Fin 29960) :
    divf (broadcast S29960x1 (Scalar.ofBits .f32 0x3F800000#32 : Ideal .f32))
        (shapeCast S29960x1 (multiReduction .add [1] S29960 X 0x00000000#32 Facts₀.reduces_S29960x128_S29960 (.inl rfl) rfl)
          Facts₀.shapeCasts_S29960_S29960x1) (ix2 p (0 : Fin 1))
      = Ideal.div 1 (∑ k : Fin 128, X (ix2 p k)) := by
  refine (divf_apply _ _ _).trans ?_
  refine congrArg₂ Ideal.div ((broadcast_apply _ _).trans one_word) ?_
  exact (Cert.LibKeepdims.shapeCast_a_a1_apply _ Facts₀.shapeCasts_S29960_S29960x1 p 0).trans (laneSum_apply X p)

/-- The stored block at row `p`, lane `q`: the entry times the reciprocal of its row's sum. -/
theorem pay_apply (X : FVec Ideal S29960x128 .f32) (p : Fin 29960) (q : Fin 128) :
    k0_pay1 (F := Ideal) X (ix2 p q) = X (ix2 p q) * Ideal.div 1 (∑ k : Fin 128, X (ix2 p k)) := by
  unfold k0_pay1
  refine (mulf_apply _ _ _).trans ?_
  refine congrArg (X (ix2 p q) * ·) ?_
  exact (Cert.LibKeepdims.broadcastTo_a1_ab_apply _ Facts₀.broadcasts_S29960x1_S29960x128 p q).trans (recip_apply X p)

end Cert.KernelIdeal.Pay

end
-- ==== Proof.RowNorm.lean ====
/-
  Row normalisation by the row's sum, as ONE function of a whole array over the extended reals, and the one
  law that joins the two ways of writing it.

  For an array `x` of 2097152 rows and 128 columns, `rowNorm x` at row `r`, column `q` is
  `x r q · (1 / s r)` with `s r = Σ_k x r k` the row's sum, the quotient being the extended reals' `Ideal.div`
  (by zero: the infinity of the dividend's sign). Written the other way, `x r q / s r`, it is the same number
  whenever `s r ≠ 0` (`mul_div_one`: then `1 / s = s⁻¹` and both are `x · s⁻¹`, at the infinities too);
  at `s r = 0` the two differ on a zero entry (`0 · ⊤ = 0` against `0 / 0 = ⊥`), which is why the
  certificate's precondition asks every row sum to be nonzero.
-/
import Idealize.ShloMosaic.PureOps.Ideal
import Idealize.ShloMosaic.Lib.ValueIdx

noncomputable section

open scoped BigOperators

namespace Cert.RowNorm

open Idealize.ShloMosaic Idealize.ShloMosaic.ValueIdx

/-- The array's shape: 2097152 rows of 128 columns. -/
abbrev SA : Shape := ⟨2, ![2097152, 128]⟩

/-- The sum of row `r`. -/
def rowSum (x : SA.Idx → EReal) (r : Fin 2097152) : EReal := ∑ k : Fin 128, x (ix2 r k)

/-- Each entry times the reciprocal of its row's sum. -/
def rowNorm (x : SA.Idx → EReal) : SA.Idx → EReal := fun i => x i * Ideal.div 1 (rowSum x (i 0))

/-- Off zero, the product with the reciprocal is the quotient: `1 / y = 1 · y⁻¹ = y⁻¹`, and `x / y = x · y⁻¹`. -/
theorem mul_div_one (x : EReal) {y : EReal} (hy : y ≠ 0) : x * Ideal.div 1 y = Ideal.div x y := by
  unfold Ideal.div
  rw [if_neg hy, if_neg hy, one_mul]

/-- So where every row sum is nonzero, `rowNorm` is entry over row sum. -/
theorem rowNorm_eq_div (x : SA.Idx → EReal) (h : ∀ r, rowSum x r ≠ 0) (i : SA.Idx) :
    rowNorm x i = Ideal.div (x i) (rowSum x (i 0)) :=
  mul_div_one (x i) (h (i 0))

end Cert.RowNorm

end
-- ==== Proof.IdealRun.lean ====
/-
  The idealized kernel's run over the extended reals, with its result array named: the row normalisation of the
  input array.

  The arrays have 2097152 rows; the grid has 70 points, point `t` working on rows `t · 29960 …` in blocks of 29960
  rows. Seventy such blocks cover 2097200 rows, so the last block overhangs the arrays by 48 rows: its fetch fills
  only the first 29912 rows of the staging buffer and the rest hold values nothing names; its write-back moves only
  those 29912 rows. Every stored row is computed from the same row of the loaded block (its entries and their sum),
  so on the rows a write-back moves, what the body stores at point `t` is block `t` of ONE whole-array function of
  the input, `rowNorm`, whatever the unnamed rows hold (`pay_cut`). The blocks cover the result array — row `r`
  lies in block `r / 29960` — so after the run the result array is `rowNorm` of the input array (`final`), and the
  input array, which no write-back targets, is unchanged.
-/
import proofs.«111073_g57389353009667_feedfinal_98_7_alg».proof.Proof.IdealBody
import proofs.«111073_g57389353009667_feedfinal_98_7_alg».proof.Proof.IdealPay
import proofs.«111073_g57389353009667_feedfinal_98_7_alg».proof.Proof.RowNorm
import Idealize.ShloMosaic.Lib.Pipeline.Value
import Idealize.ShloMosaic.Lib.Pipeline.Frame

noncomputable section

open scoped BigOperators

namespace Cert.KernelIdeal.Run

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

local notation "𝕄" => MT nD τ sig Unit (Elt Ideal) ℕ (UR sig nD τ) ℕ

variable (m : (ℓ : Loc nD τ sig) → Buf (Elt Ideal) ℓ) (ρ : Dev nD → PrngReg)

/-- The input array on core `c`, as the region finds it. -/
abbrev xarr (c : Dev nD) : Cert.RowNorm.SA.Idx → EReal := V m c main_arg0

/-- Block `t` of the input array: its rows inside the array. -/
def xblk (c : Dev nD) (t : Fin cfg0.N) : (win0_0.xblock (grid0.coords t)).Idx → Elt Ideal .f32 := iblk m c 0 t

/-- Block `t` of the row-normalised input array. -/
def gblk (c : Dev nD) (t : Fin cfg0.N) : (win0_1.xblock (grid0.coords t)).Idx → Elt Ideal .f32 :=
  (win0_1.blk t).view.read (Elt Ideal) (Cert.RowNorm.rowNorm (xarr m c))

/-- What the staging buffers hold after the body at point `t` on the rows inside the arrays: the input's block, and
    block `t` of the row-normalised array; past the arrays' end the filler is zero, which nothing reads (both windows'
    obligations speak of the moved rows only). The arrays at the region's entry are the launch's; the invariant is the
    class's; nothing is owed; shares are full. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (xblk m c t)
    | ⟨1, _⟩ => win0_1.fill (grid0.coords t) (fun _ => (0 : EReal)) (gblk m c t)
  Φ _ := Pipeline.ΦA spec0 c
  q _ := fullShare
  owed _ := 0

theorem after_0 (c : Dev nD) (t : Fin cfg0.N) :
    (dats m 0 c).after 0 t = win0_0.fill (grid0.coords t) (fun _ => (0 : EReal)) (xblk m c t) := by dsimp only [dats]
theorem after_1 (c : Dev nD) (t : Fin cfg0.N) :
    (dats m 0 c).after 1 t = win0_1.fill (grid0.coords t) (fun _ => (0 : EReal)) (gblk m c t) := by dsimp only [dats]

theorem before_0 (c : Dev nD) (t : Fin cfg0.N) (d) :
    (dats m 0 c).before (0 : Fin 2) t d = win0_0.fill (grid0.coords t) d (xblk m c t) := by
  unfold Dat.before; rw [if_pos (fetch0_0 t)]; rfl

theorem before_1 (c : Dev nD) (t : Fin cfg0.N) (d) : (dats m 0 c).before (1 : Fin 2) t d = d :=
  (dats m 0 c).before_out_reset 1 rfl t
    (by by_cases h : t.val = 0
        · exact .inl h
        · exact .inr ⟨h, flush0_1 _⟩) d

/-- The printed index maps and cuts, decided over the grid. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_0.xsize (grid0.coords t) (0 : Fin 2) = (if t.val = 69 then 29912 else 29960)
    ∧ win0_0.xsize (grid0.coords t) (1 : Fin 2) = 128
    ∧ win0_1.xsize (grid0.coords t) (0 : Fin 2) = (if t.val = 69 then 29912 else 29960)
    ∧ win0_1.xsize (grid0.coords t) (1 : Fin 2) = 128 :=
  (by decide +kernel : ∀ t : Fin grid0.N, _)

/-- Every point is one of the grid's seventy. -/
theorem t_lt (t : Fin cfg0.N) : t.val < 70 := lt_of_lt_of_eq t.isLt N_0

/-- An entry of the fetched input buffer on a row the fetch moved is the input array's entry at the block's offset:
    row `p` of block `t` is row `t · 29960 + p` of the array. -/
theorem fill_apply (c : Dev nD) (t : Fin cfg0.N) (d : S29960x128.Idx → Elt Ideal .f32) (p : Fin 29960) (k : Fin 128)
    (hp : p.val < win0_0.xsize (grid0.coords t) (0 : Fin 2)) (hb : t.val * 29960 + p.val < 2097152) :
    win0_0.fill (grid0.coords t) d (xblk m c t) (ix2 p k) = xarr m c (ix2 ⟨t.val * 29960 + p.val, hb⟩ k) := by
  obtain ⟨e0, e1, -, -, -, s1, -, -⟩ := idx_facts t
  have hm : win0_0.moved (grid0.coords t) (ix2 p k) = true :=
    (win0_0.moved_iff _ _).mpr fun a => match a with
      | ⟨0, _⟩ => hp
      | ⟨1, _⟩ => by show k.val < win0_0.xsize (grid0.coords t) (1 : Fin 2); rw [s1]; exact k.isLt
  unfold Window.fill
  rw [dif_pos hm]
  unfold xblk iblk
  show V m c main_arg0 (((cfg0.win 0).blk t).view.emb _) = V m c main_arg0 _
  refine congrArg (V m c main_arg0) (funext fun a => Fin.ext ?_)
  match a with
  | ⟨0, _⟩ => show win0_0.index t (0 : Fin 2) * 29960 + 1 * p.val = t.val * 29960 + p.val; rw [e0]; omega
  | ⟨1, _⟩ => show win0_0.index t (1 : Fin 2) * 128 + 1 * k.val = k.val; rw [e1]; omega

/-- What the body stores, on the rows the write-back moves, is block `t` of the row-normalised array — whatever
    the fetch left in the input buffer's rows past the array's end: a stored row is computed from its own row. -/
theorem pay_cut (c : Dev nD) (t : Fin cfg0.N) (d : S29960x128.Idx → Elt Ideal .f32) :
    win0_1.cut (grid0.coords t) (k0_pay1 (F := Ideal) (win0_0.fill (grid0.coords t) d (xblk m c t))) = gblk m c t := by
  obtain ⟨-, -, e2, e3, s0, -, s2, s3⟩ := idx_facts t
  have ht := t_lt t
  funext j
  have hj0 : (j 0).val < win0_1.xsize (grid0.coords t) (0 : Fin 2) := (j 0).isLt
  have hj1 : (j 1).val < win0_1.xsize (grid0.coords t) (1 : Fin 2) := (j 1).isLt
  rw [s3] at hj1
  have hj0' : (j 0).val < 29960 := by rw [s2] at hj0; split at hj0 <;> omega
  have hp : (j 0).val < win0_0.xsize (grid0.coords t) (0 : Fin 2) := by rw [s0, ← s2]; exact (j 0).isLt
  have hb : t.val * 29960 + (j 0).val < 2097152 := by rw [s2] at hj0; split at hj0 <;> omega
  have hij : win0_1.xinj (grid0.coords t) j = ix2 (⟨(j 0).val, hj0'⟩ : Fin 29960) (⟨(j 1).val, hj1⟩ : Fin 128) :=
    funext fun a => match a with | ⟨0, _⟩ => rfl | ⟨1, _⟩ => rfl
  have hemb : ((cfg0.win 1).blk t).view.emb j = ix2 (⟨t.val * 29960 + (j 0).val, hb⟩ : Fin 2097152) (⟨(j 1).val, hj1⟩ : Fin 128) := by
    funext a; apply Fin.ext
    match a with
    | ⟨0, _⟩ => show win0_1.index t (0 : Fin 2) * 29960 + 1 * (j 0).val = t.val * 29960 + (j 0).val; rw [e2]; omega
    | ⟨1, _⟩ => show win0_1.index t (1 : Fin 2) * 128 + 1 * (j 1).val = (j 1).val; rw [e3]; omega
  show k0_pay1 (F := Ideal) (win0_0.fill (grid0.coords t) d (xblk m c t)) (win0_1.xinj (grid0.coords t) j) = _
  rw [hij]
  refine (Cert.KernelIdeal.Pay.pay_apply _ _ _).trans ?_
  unfold gblk
  show _ = Cert.RowNorm.rowNorm (xarr m c) (((cfg0.win 1).blk t).view.emb j)
  rw [hemb, fill_apply m c t d ⟨(j 0).val, hj0'⟩ ⟨(j 1).val, hj1⟩ hp hb]
  simp only [fill_apply m c t d ⟨(j 0).val, hj0'⟩ _ hp hb]
  rfl

/-! ## The body obligation -/

/-- At every point the input's buffer arrives just fetched — block `t` on the rows inside the array, anything
    past them — and the result's at anything; the body leaves the first as it was and the second at its arithmetic of
    the first, which on the rows the write-back moves is block `t` of the row-normalised array (`pay_cut`). That is all
    the obligation of a window whose blocks may overhang asks. -/
theorem body_obligation (c : Dev nD) :
    BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩⟩
  rw [before_0 m c t d0, before_1 m c t d1]
  iapply (Cert.KernelIdeal.Body.sound_body (F := Ideal) c Set.univ (grid0.coords t) (cfg0.slots t 0) (cfg0.slots t 1)
    (win0_0.fill (grid0.coords t) d0 (xblk m c t)) d1 _)
  isplitl [H0 H1]
  · isplitl [H0]
    · iexact H0
    · iexact H1
  iintro ⟨H0, H1⟩
  isplitl [HΦ]; · iexact HΦ
  isplitl [Ho]; · iexact Ho
  have hx : win0_0.cut (grid0.coords t) ((dats m 0 c).after 0 t) = xblk m c t := by
    rw [after_0]; exact win0_0.cut_fill _ _ _
  have hg : win0_1.cut (grid0.coords t) ((dats m 0 c).after 1 t)
      = win0_1.cut (grid0.coords t) (k0_pay1 (F := Ideal) (win0_0.fill (grid0.coords t) d0 (xblk m c t))) := by
    rw [after_1, pay_cut m c t d0]; exact win0_1.cut_fill _ _ _
  isplitl [H0]
  · iexists d0
    change _ ⊢ owns (c : Thread nD τ) (stage0_0 (cfg0.slots t 0)) fullShare
      (win0_0.fill (grid0.coords t) d0 (win0_0.cut (grid0.coords t) ((dats m 0 c).after 0 t)))
    rw [hx]
  · iexists k0_pay1 (F := Ideal) (win0_0.fill (grid0.coords t) d0 (xblk m c t))
    change _ ⊢ owns (c : Thread nD τ) (stage0_1 (cfg0.slots t 1)) fullShare
      (win0_1.fill (grid0.coords t) (k0_pay1 (F := Ideal) (win0_0.fill (grid0.coords t) d0 (xblk m c t)))
        (win0_1.cut (grid0.coords t) ((dats m 0 c).after 1 t)))
    rw [hg, win0_1.fill_cut]

/-! ## The run -/

set_option backward.isDefEq.respectTransparency.types false in
/-- From any memory with zero counters every weakly fair execution of @main terminates, with every staged array at
    what the write-backs leave there and every other unscoped buffer what it held. -/
theorem run_main : θ_run defs (onTc (τ := τ) (main (F := Ideal))) (s₀ m ρ) (Pipeline.FramePost cfgs (dats m) 0 (V m)) :=
  Pipeline.θ_run_frame cfgs (dats m) 0 launch0 defs₀ Variants.none m ρ main
    (hbody := body_obligation m)
    (hshare := fun c => (dats m 0 c).share_full fun _ => rfl) (howed := fun _ _ => rfl)
    (V := V m) (hmain := hmain m Variants.none) (hA := fun _ _ => rfl) (hΦ := fun _ _ => rfl)

/-! ## The result array after the run -/

/-- What point `t` writes back is block `t` of the row-normalised input array. -/
theorem flushed_eq (c : Dev nD) (t : Fin cfg0.N) :
    (dats m 0 c).flushed 1 t = ((cfg0.win 1).blk t).view.read (Elt Ideal) (Cert.RowNorm.rowNorm (xarr m c)) := by
  show win0_1.cut (grid0.coords t) ((dats m 0 c).after 1 t) = _
  rw [after_1]
  exact win0_1.cut_fill _ _ _

/-- An index of the array is in point `t`'s block iff each coordinate is in the block's range cut at the array's
    end. -/
theorem mem_blk (t : Fin cfg0.N) (i : S2097152x128.Idx) :
    i ∈ ((cfg0.win 1).blk t).view.set ↔ ∀ a : Fin 2, win0_1.index t a * S29960x128.size a ≤ (i a).val
      ∧ (i a).val < win0_1.index t a * S29960x128.size a + win0_1.xsize (grid0.coords t) a := by
  show i ∈ ((View.whole main_v0).slice (win0_1.rect t)).set ↔ _
  rw [View.set_slice_whole, Rect.mem_set_unit]
  exact Iff.rfl

/-- Every index of the result array lies in some point's block: row `r` in block `r / 29960`, the seventieth
    block holding the last 29912 rows. -/
theorem cover (i : S2097152x128.Idx) :
    ∃ t : Fin cfg0.N, (cfg0.win 1).flush t = true ∧ i ∈ ((cfg0.win 1).blk t).view.set := by
  have hi0 : (i 0).val < 2097152 := (i 0).isLt
  have hi1 : (i 1).val < 128 := (i 1).isLt
  have hN : (i 0).val / 29960 < cfg0.N := by rw [show cfg0.N = 70 from N_0]; omega
  refine ⟨⟨(i 0).val / 29960, hN⟩, flush0_1 _, ?_⟩
  rw [mem_blk]
  obtain ⟨-, -, e2, e3, -, -, s2, s3⟩ := idx_facts ⟨(i 0).val / 29960, hN⟩
  intro a
  match a with
  | ⟨0, _⟩ =>
    show win0_1.index ⟨(i 0).val / 29960, hN⟩ (0 : Fin 2) * 29960 ≤ (i 0).val
      ∧ (i 0).val < win0_1.index ⟨(i 0).val / 29960, hN⟩ (0 : Fin 2) * 29960 + win0_1.xsize (grid0.coords ⟨(i 0).val / 29960, hN⟩) (0 : Fin 2)
    rw [e2, s2]
    show (i 0).val / 29960 * 29960 ≤ (i 0).val ∧ (i 0).val < (i 0).val / 29960 * 29960 + (if (i 0).val / 29960 = 69 then 29912 else 29960)
    split <;> omega
  | ⟨1, _⟩ =>
    show win0_1.index ⟨(i 0).val / 29960, hN⟩ (1 : Fin 2) * 128 ≤ (i 1).val
      ∧ (i 1).val < win0_1.index ⟨(i 0).val / 29960, hN⟩ (1 : Fin 2) * 128 + win0_1.xsize (grid0.coords ⟨(i 0).val / 29960, hN⟩) (1 : Fin 2)
    rw [e3, s3]; omega

/-- So the result array ends holding the row-normalised input array. -/
theorem final (c : Dev nD) : (dats m 0 c).arrAt 1 cfg0.N = Cert.RowNorm.rowNorm (xarr m c) :=
  (dats m 0 c).arrAt_eq_of_cover 1 _ (fun t _ => flushed_eq m c t) cover

/-- The run re-posted: the result at the row normalisation of the argument, the argument unchanged. -/
theorem run : θ_run defs (onTc (τ := τ) (main (F := Ideal))) ⟨m, fun _ => 0, ρ⟩ fun r => ∀ c : Dev nD,
      r.2.mem ((c.tc : Thread nD τ).loc main_v0) = Cert.RowNorm.rowNorm (m ((c.tc : Thread nD τ).loc main_arg0))
      ∧ r.2.mem ((c.tc : Thread nD τ).loc main_arg0) = m ((c.tc : Thread nD τ).loc main_arg0) :=
  (θ_run defs _ _).mono (fun _ h c => ⟨((h c).1 1).trans (final m c),
      ((h c).1 0).trans (((dats m 0 c).arrAt_in 0 rfl _).trans (V_main_arg0 m c))⟩)
    (run_main m ρ)

/-- The frame: the run with the result dropped. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run m ρ)

end Cert.KernelIdeal.Run

end
-- ==== Proof.RowsNonzero.lean ====
/-
  The precondition's second conjunct, read back: every row sum of the input is nonzero.

  The precondition is the conjunction of two `all`s. The second is the `all` over rows `r` of "the sum of row `r`,
  started from the constant zero, is not equal to zero". A conjunction of `i1` words that is 1 has both words 1; an
  `and`-reduction over every axis that is 1 met a 1 at every index; the comparison at row `r` is, over the extended
  reals, the inequality `0 + Σ_k x r k ≠ 0`; and the row sum started at zero is the row sum.
-/
import proofs.«111073_g57389353009667_feedfinal_98_7_alg».proof.Pre_finite_inputs
import proofs.«111073_g57389353009667_feedfinal_98_7_alg».proof.Proof.RowNorm
import Idealize.ShloMosaic.Lib.ReduceAll
import Idealize.ShloMosaic.Lib.StableHlo.Predicate
import Idealize.ShloMosaic.PureOps.Ideal.Laws
import Idealize.ShloMosaic.Lib.ValueIdx

noncomputable section

open scoped BigOperators

namespace Cert.RowNorm

open Idealize.ShloMosaic Idealize.ShloMosaic.ValueIdx Idealize.ShloMosaic.StableHlo.Predicate Cert.Pre_finite_inputs

/-- The scalar shape has one index. -/
instance : Subsingleton S_.Idx := ⟨fun _ _ => funext fun d => d.elim0⟩

/-- Where the precondition holds, every row sum is nonzero. -/
theorem rows_nonzero [Cert.Pre_finite_inputs.Facts] (x : FVec Ideal Cert.Pre_finite_inputs.S2097152x128 .f32)
    (h : Cert.Pre_finite_inputs.fn (F := Ideal) x = fun _ => 1#1) : ∀ r : Fin 2097152, rowSum x r ≠ 0 := by
  intro r
  -- the result's one word is 1
  have h0 := congrFun h ix0
  dsimp only [fn] at h0
  -- so both conjuncts are 1; the second is the `all` over rows
  obtain ⟨-, h2⟩ := IntOp.andi_eq_one.1 h0
  -- so its comparison is 1 at row `r`
  have h3 := Host.reduce_andi_all _ _ _ _ _ h2 (ix1 r)
  -- the comparison at an index compares the elements; over the extended reals `une` is `≠`
  rw [cmpf_apply, Ideal.cmpf_def] at h3
  unfold Ideal.cmp at h3
  rw [ofBool_eq_one_iff, decide_eq_true_eq] at h3
  -- the broadcast zero constant is the extended real 0
  have hb : broadcastInDim S2097152 ![] Facts.bcast_S_S2097152 (constant (F := Ideal) S_ .f32 0x00000000#32) (ix1 r)
      = (0 : EReal) := Ideal.ofBits_zero_f32
  rw [hb] at h3
  -- the host's sum along the second axis, started at zero, is the row sum
  have hs : Host.reduceAdd (F := Ideal) x (constant S_ .f32 0x00000000#32) Facts.reducesTo_S2097152x128_S2097152_d1 Facts.h_S_ (ix1 r)
      = rowSum x r := by
    simp only [Host.reduceAdd, Ideal.hostReduceAdd_def]
    rw [Ideal.hostReduceAdd_single Facts.reducesTo_S2097152x128_S2097152_d1 (by decide)]
    show Ideal.ofBits .f32 0x00000000#32 + _ = _
    rw [Ideal.ofBits_zero_f32, zero_add]
    -- the index the reduction inserts `k` into at row `r` is `(r, k)`
    exact Finset.sum_congr rfl fun k _ =>
      congrArg x (funext fun a => Fin.ext (by match a with | ⟨0, _⟩ => rfl | ⟨1, _⟩ => rfl))
  rw [hs] at h3
  exact h3

end Cert.RowNorm

end
-- ==== Proof.RefRowNorm.lean ====
/-
  The reference's result is the row normalisation.

  The reference sums each row (from the constant zero), spreads the sum back over the row's columns by two broadcasts, and
  divides each entry by it. Read at an entry `(r, q)`: the divisor is `0 + Σ_k x r k`, the row sum, so the entry is
  `x r q / s r`; and where every row sum is nonzero that quotient is `x r q · (1 / s r)`, which is `rowNorm`.
-/
import proofs.«111073_g57389353009667_feedfinal_98_7_alg».proof.Proof.Gen.ReferenceIdeal.Read
import proofs.«111073_g57389353009667_feedfinal_98_7_alg».proof.Proof.RowNorm

noncomputable section

open scoped BigOperators

namespace Cert.ReferenceIdeal.RefValue

open Idealize.ShloMosaic Idealize.ShloMosaic.ValueIdx Cert.ReferenceIdeal Cert.ReferenceIdeal.Read Cert.RowNorm

/-- Where every row sum is nonzero, the reference's result is `rowNorm` of its argument. -/
theorem ref_eq (x : (⟨Cert.ReferenceIdeal.S2097152x128, .f32⟩ : BufTy).Contents (Elt Ideal))
    (h : ∀ r : Fin 2097152, Cert.RowNorm.rowSum x r ≠ 0) :
    Cert.ReferenceIdeal.Read.val_main_v3 (F := Ideal) x = Cert.RowNorm.rowNorm x := by
  funext i
  -- the quotient form of `rowNorm`, then the reference read one operation at a time, outermost first
  rw [rowNorm_eq_div x h i, val_main_v3_apply, val_main_v2_apply, val_main_v1_apply, val_main_v0_apply, val_main_cst_apply,
    Ideal.hostDivf_def, Ideal.ofBits_def, Ideal.ofBits_zero_f32, zero_add]
  -- the index the three layout steps compose to at `i`, column `k`, is `(i 0, k)`
  exact congrArg (Ideal.div (x i)) (Finset.sum_congr rfl fun k _ =>
    congrArg x (funext fun a => Fin.ext (by match a with | ⟨0, _⟩ => rfl | ⟨1, _⟩ => rfl)))

end Cert.ReferenceIdeal.RefValue

end
-- ==== Proof.lean ====
/-
  Row normalisation by the row sum, as a tiled kernel and as its plain reference, are the same function over the
  extended reals wherever every row sum is nonzero.

  The kernel computes `x · (1 / s)` per entry, `s` the entry's row sum; the reference computes `x / s`. Off
  `s = 0` both are `x · s⁻¹` (`RowNorm.mul_div_one`); at `s = 0` they differ on a zero entry, so the precondition
  asks, beside finite inputs, that every row sum be nonzero — where it fails the reference itself divides by zero.
  Finiteness is never used.

  The kernel works on 70 blocks of 29960 rows over arrays of 2097152 rows; the last block overhangs the arrays by 48
  rows, whose staging contents nothing names. The frames of the two kernel programs do not depend on any contents:
  the word-level one forgets what the buffers hold (Proof/BitsFrame.lean), the idealized one names the result rows
  inside the array (Proof/IdealRun.lean), which depend on their own rows only, so that the result array ends at
  `rowNorm` of the input. The reference's run is read one operation at a time (Proof/RefRowNorm.lean), and the
  precondition's second conjunct is read back as "every row sum is nonzero" (Proof/RowsNonzero.lean).
-/
import proofs.«111073_g57389353009667_feedfinal_98_7_alg».proof.Defs
import proofs.«111073_g57389353009667_feedfinal_98_7_alg».proof.Proof.Gen.Kernel
import proofs.«111073_g57389353009667_feedfinal_98_7_alg».proof.Proof.Gen.KernelIdeal
import proofs.«111073_g57389353009667_feedfinal_98_7_alg».proof.Proof.Gen.ReferenceIdeal
import proofs.«111073_g57389353009667_feedfinal_98_7_alg».proof.Proof.Gen.ReferenceIdeal.Run
import proofs.«111073_g57389353009667_feedfinal_98_7_alg».proof.Proof.Gen.ReferenceIdeal.Read
import proofs.«111073_g57389353009667_feedfinal_98_7_alg».proof.Proof.Gen.Pre_finite_inputs
import proofs.«111073_g57389353009667_feedfinal_98_7_alg».proof.Proof.BitsFrame
import proofs.«111073_g57389353009667_feedfinal_98_7_alg».proof.Proof.IdealRun
import proofs.«111073_g57389353009667_feedfinal_98_7_alg».proof.Proof.RowsNonzero
import proofs.«111073_g57389353009667_feedfinal_98_7_alg».proof.Proof.RefRowNorm
import Idealize.ShloMosaic.Adequacy
import Idealize.ShloMosaic.Init

noncomputable section

namespace Cert.Proof

open Idealize.ShloMosaic Idealize.ShloMosaic.TcCoe Idealize.SL.Sem

/-- The word-level kernel runs to the end and leaves its input array as it was, whatever the staging buffers hold. -/
theorem frame_k : Cert.frame_Kernel := fun m ρ _ => Cert.Kernel.BitsFrame.frame (F := Bits) m ρ

/-- So does the idealized kernel. -/
theorem frame_ki : Cert.frame_KernelIdeal := fun m ρ _ => Cert.KernelIdeal.Run.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end at `rowNorm` of the common argument: the kernel by its run, the reference because every row
    sum is nonzero under the precondition, where entry over row sum is entry times the row sum's reciprocal. -/
theorem algebraic : Cert.algebraic_KernelIdeal_ReferenceIdeal := by
  intro m ρ m' ρ' hpre hagree
  refine ⟨fun c => Cert.RowNorm.rowNorm (m ((c.tc : Thread Cert.KernelIdeal.nD Cert.KernelIdeal.τ).loc Cert.KernelIdeal.main_arg0)),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v3_eq (F := Ideal) _).trans ?_
  rw [hagree c]
  exact Cert.ReferenceIdeal.RefValue.ref_eq _ (Cert.RowNorm.rows_nonzero _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
